-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x64 : Shape := ⟨2, ![200, 64]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S1x64, .f32⟩
  | .hbm, ⟨5, _⟩ => ⟨S10000x64, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S400x64_S200x64_0_0 : ∀ a, (![0, 0] : Fin 2 → Nat) a + S200x64.size a ≤ S400x64.size a
  h_S200x64 : 0 < S200x64.numel
  inb_S400x64_S200x64_200_0 : ∀ a, (![200, 0] : Fin 2 → Nat) a + S200x64.size a ≤ S400x64.size a
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10000x64 : Shape := ⟨2, ![10000, 64]⟩
abbrev S1x64 : Shape := ⟨2, ![1, 64]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10000x64, .f32⟩
  | .hbm, ⟨5, _⟩ => ⟨S10000x64, .f32⟩
  | .hbm, ⟨6, _⟩ => ⟨S1x64, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000x64, .f32⟩
  | .hbm, ⟨11, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRuns.lean ====
/-
  What the two runs of the kernel body share: the branch condition of the body's one conditional (it is taken at
  the first grid point only, where the body computes the product x·W into its scratch buffer), the staging
  memrefs the pipeline passes the body at a point, and the scratch buffer as a memref.
-/
import proofs.«108894_g71442486001720_cont_9to1_m_357_7_alg».proof.Proof.Gen.Kernel.Launch
import proofs.«108894_g71442486001720_cont_9to1_m_357_7_alg».proof.Proof.Gen.Kernel.Skeleton
import proofs.«108894_g71442486001720_cont_9to1_m_357_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's conditional, from the grid coordinate: "this is grid point 0". -/
abbrev cond0 (i : grid0.Coords) : Prop :=
  (Scalar.cmpi .ne (Scalar.extui (Scalar.cmpi .eq (BitVec.ofNat 32 (i 0).val) 0#32)) 0#32) = 1#1

/-- It holds at the first of the 25 points and at no other. -/
theorem hcond0 : ∀ t : Fin cfg0.N, cond0 (grid0.coords t) ↔ t.val = 0 :=
  (by decide +kernel : ∀ t : Fin grid0.N, cond0 (grid0.coords t) ↔ t.val = 0)

/-- No window is ever idle: the body reads every input and stores the whole output block at every point. -/
theorem live0 : ∀ (w : Fin cfg0.W) (t : Fin cfg0.N), cfg0.idle w (grid0.coords t) = false := by decide +kernel

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x64 .f32 := win0_5.stage (cfg0.slots t 5)
abbrev hs5 (t : Fin cfg0.N) : (ms5 t).IsWhole := hstage0_5 ((cfg0.slots t 5).cast nbuf0_5)

/-- The scratch buffer that holds x·W from the first point on, as a whole memref and as a view. -/
abbrev scM : Memref sig .tc .vmem S10000x64 .f32 := Memref.whole cc0_scratch0
abbrev VS : View sig .tc .vmem S10000x64 .f32 := (scM : Memref sig .tc .vmem S10000x64 .f32).view
/-- One staging buffer of the output window, through which its contents are stated. -/
abbrev VO : View sig .tc .vmem S400x64 .f32 := (Memref.whole cc0_stg5_0 : Memref sig .tc .vmem S400x64 .f32).view

/-- The core's scoped buffers that are no staging buffer: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Body

end
-- ==== Proof.KernelRunA.lean ====
/-
  The kernel body at the first grid point. Its conditional is taken: it loads x and W whole, stores their product
  into the scratch buffer, and then, reading the scratch back, stores rows 0..199 of the output block from the
  first adjacency block and rows 200..399 from the second. The run finds, as lists of pieces, what the output's
  staging buffer and the scratch are left holding.
-/
import proofs.«108894_g71442486001720_cont_9to1_m_357_7_alg».proof.Proof.KernelRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the five inputs' at contents x, a1, a2, w, b, the output's and the scratch at
    anything — the body with its conditional taken runs to the continuation, the inputs as they were, the output's
    buffer with the pieces `L5` written and the scratch with the pieces `LS` written. -/
noncomputable def runFirst (c : Dev nD) (i : grid0.Coords)
    (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : cond0 i)
    (x : Vec F S10000x128 .f32) (a1 a2 : Vec F S200x10000 .f32) (w : Vec F S128x64 .f32) (b : Vec F S1x64 .f32) :
    Σ' (L5 : List (View.Piece (Elt F) S400x64 .f32)), { LS : List (View.Piece (Elt F) S10000x64 .f32) //
      ∀ (E : Set ℕ) (K : PUnit → sProp 𝕄),
        iprop(owns (c : Thread nD τ) arg1 fullShare x ∗ owns (c : Thread nD τ) arg2 fullShare a1 ∗ owns (c : Thread nD τ) arg3 fullShare a2
            ∗ owns (c : Thread nD τ) arg4 fullShare w ∗ owns (c : Thread nD τ) arg5 fullShare b
            ∗ (∃ d, owns (c : Thread nD τ) arg6 fullShare d) ∗ (∃ d, owns (c : Thread nD τ) arg7 fullShare d)
            ∗ (iprop(owns (c : Thread nD τ) arg1 fullShare x ∗ owns (c : Thread nD τ) arg2 fullShare a1 ∗ owns (c : Thread nD τ) arg3 fullShare a2
                ∗ owns (c : Thread nD τ) arg4 fullShare w ∗ owns (c : Thread nD τ) arg5 fullShare b
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Body

end
-- ==== Proof.KernelRunB.lean ====
/-
  The kernel body at every grid point after the first. Its conditional is not taken: the scratch buffer still holds
  what the first point stored there, the body only reads it, and stores rows 0..199 of the output block from the
  first adjacency block and rows 200..399 from the second. The run finds, as a list of pieces, what the output's
  staging buffer is left holding; the scratch is handed back as it was.
-/
import proofs.«108894_g71442486001720_cont_9to1_m_357_7_alg».proof.Proof.KernelRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the adjacency blocks' at a1, a2, the bias' at b, the scratch at s, the output's
    at anything; x and W are not read — the body with its conditional not taken runs to the continuation, those
    as they were and the output's buffer with the pieces `L5` written. -/
noncomputable def runLater (c : Dev nD) (i : grid0.Coords)
    (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : ¬cond0 i)
    (a1 a2 : Vec F S200x10000 .f32) (b : Vec F S1x64 .f32) (s : Vec F S10000x64 .f32) :
    { L5 : List (View.Piece (Elt F) S400x64 .f32) //
      ∀ (E : Set ℕ) (K : PUnit → sProp 𝕄),
        iprop(owns (c : Thread nD τ) arg2 fullShare a1 ∗ owns (c : Thread nD τ) arg3 fullShare a2
            ∗ owns (c : Thread nD τ) arg5 fullShare b
            ∗ (∃ d, owns (c : Thread nD τ) arg6 fullShare d) ∗ owns (c : Thread nD τ) arg7 fullShare s
            ∗ (iprop(owns (c : Thread nD τ) arg2 fullShare a1 ∗ owns (c : Thread nD τ) arg3 fullShare a2
                ∗ owns (c : Thread nD τ) arg5 fullShare b
                ∗ (∃ f, arg6.view.loc (c : Thread nD τ) ↦[arg6.view.set]{fullShare} arg6.view.writes (Elt F) f L5)
                ∗ owns (c : Thread nD τ) arg7 fullShare s) -∗ K ⟨⟩))
          ⊢ wp frame (wpE (defs₀ (F := F)) Variants.none c none) E
              (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f2, %hf2, H2⟩, ⟨%f3, %hf3, H3⟩, ⟨%f5, %hf5, H5⟩, ⟨%d6, %f6, -, H6⟩, ⟨%f7, %hf7, H7⟩, Hk⟩
    obtain rfl := harg2.eq_unread hf2; obtain rfl := harg3.eq_unread hf3
    obtain rfl := harg5.eq_unread hf5; obtain rfl := harg7.eq_unread hf7
    sl_exec (disch := exact hc)
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]; · iexists _; iexact H6
    iexists _; isplitr; · ipureintro; exact harg7.read_unread _
    iexact H7

end Cert.Kernel.Body

end
-- ==== Proof.KernelData.lean ====
/-
  The proof data of the kernel's one region. The arrays as the region finds them (the bias reshaped by the one host
  operation before it); each window's block at a grid point; what the two runs of the body leave in the output's
  staging buffer and in the scratch buffer, read back from the pieces the runs found; and the pipeline's data:
  every input's buffer keeps its block, the output's holds the point's two stored halves, the scratch holds x·W
  from the first point on, the two windows on the adjacency matrix hold it at the two halves of the full share.
-/
import proofs.«108894_g71442486001720_cont_9to1_m_357_7_alg».proof.Proof.KernelRunA
import proofs.«108894_g71442486001720_cont_9to1_m_357_7_alg».proof.Proof.KernelRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the one host operation before it, the bias
    reshaped from [64] to [1, 64]. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result buffer only: the four arguments are as the program found them. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-! ## What the body leaves -/

/-- The output block after the first point: the run's pieces read back. -/
def outFirst (c : Dev nD) (t : Fin cfg0.N) (hc : cond0 (grid0.coords t)) : Vec F S400x64 .f32 :=
  VO.read (Elt F) (VO.writes (Elt F) VO.junk
    (runFirst c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).1)

/-- The scratch after the first point: the run's pieces read back. -/
def scrFirst (c : Dev nD) (t : Fin cfg0.N) (hc : cond0 (grid0.coords t)) : Vec F S10000x64 .f32 :=
  VS.read (Elt F) (VS.writes (Elt F) VS.junk
    (runFirst c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).2.1)

/-- The output block after a later point, the scratch holding `s`: the run's pieces read back. -/
def outLater (c : Dev nD) (t : Fin cfg0.N) (hc : ¬cond0 (grid0.coords t)) (s : Vec F S10000x64 .f32) : Vec F S400x64 .f32 :=
  VO.read (Elt F) (VO.writes (Elt F) VO.junk
    (runLater c (grid0.coords t) (ms0 t) (hs0 t) (ms1 t) (hs1 t) (ms2 t) (hs2 t) (ms3 t) (hs3 t) (ms4 t) (hs4 t) (ms5 t) (hs5 t) scM (Memref.isWhole_whole _) hc (iblk m c 1 t) (iblk m c 2 t) (iblk m c 4 t) s).1)

/-- The first point's two stores tile the 400-row output block. -/
theorem coverFirst (c : Dev nD) (t : Fin cfg0.N) (hc : cond0 (grid0.coords t)) (y : S400x64.Idx) :
    ∃ pc ∈ (runFirst (F := F) c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).1, y ∈ pc.1.set :=
  View.cover_of_tiledL (s := S400x64) _ S200x64.size (by sl_kernel_rfl) y

/-- Its store into the scratch covers the scratch. -/
theorem scoverFirst (c : Dev nD) (t : Fin cfg0.N) (hc : cond0 (grid0.coords t)) (y : S10000x64.Idx) :
    ∃ pc ∈ (runFirst (F := F) c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).2.1, y ∈ pc.1.set :=
  View.cover_of_tiledL _ S10000x64.size (by sl_kernel_rfl) y

/-- A later point's two stores tile the output block. -/
theorem coverLater (c : Dev nD) (t : Fin cfg0.N) (hc : ¬cond0 (grid0.coords t)) (s : Vec F S10000x64 .f32) (y : S400x64.Idx) :
    ∃ pc ∈ (runLater (F := F) c (grid0.coords t) (ms0 t) (hs0 t) (ms1 t) (hs1 t) (ms2 t) (hs2 t) (ms3 t) (hs3 t) (ms4 t) (hs4 t) (ms5 t) (hs5 t) scM (Memref.isWhole_whole _) hc (iblk m c 1 t) (iblk m c 2 t) (iblk m c 4 t) s).1, y ∈ pc.1.set :=
  View.cover_of_tiledL (s := S400x64) _ S200x64.size (by sl_kernel_rfl) y

/-- What the scratch holds from the first point on. -/
def scr (c : Dev nD) : Vec F S10000x64 .f32 := scrFirst m c t₀ ((hcond0 t₀).mpr rfl)

/-- What the output's staging buffer holds after the body at point `t`. -/
def outAt (c : Dev nD) (t : Fin cfg0.N) : Vec F S400x64 .f32 :=
  if h : t.val = 0 then outFirst m c t ((hcond0 t).mpr h) else outLater m c t (fun hc => h ((hcond0 t).mp hc)) (scr m c)

theorem outAt_first (c : Dev nD) (t : Fin cfg0.N) (h : t.val = 0) : outAt m c t = outFirst m c t ((hcond0 t).mpr h) := dif_pos h
theorem outAt_later (c : Dev nD) (t : Fin cfg0.N) (h : ¬t.val = 0) :
    outAt m c t = outLater m c t (fun hc => h ((hcond0 t).mp hc)) (scr m c) := dif_neg h

/-- The region invariant before position `n`: the scratch at anything before the first point, at x·W afterwards. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

theorem PhiS_pos (c : Dev nD) (n : ℕ) (hn : n ≠ 0) : PhiS m c n = owns (c : Thread nD τ) scM fullShare (scr m c) := by
  cases n with
  | zero => exact absurd rfl hn
  | succ n => rfl

/-! ## The pipeline's proof data -/

/-- The arrays as the region finds them; after the body each input's buffer at its block and the output's at
    `outAt`; the two windows on the adjacency matrix at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- An input's current staging buffer holds its block at every point, fetched there or not: unfetched, the index
    has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.Kernel.Body

end
-- ==== Proof.LibSharedFrame.lean ====
/-
  The frame run of a one-region pipeline program whose INPUT windows may share an array: several windows of the
  region read blocks of one array, so the arrays behind the windows are not pairwise distinct. The launch hands the
  pipeline each distinct array once, whole; the certificate says how that is dealt among the windows (`hsplit`: an
  array read through several windows is split into read shares, one per window). The body may carry something in its
  scratch buffers from point to point: the region invariant is the certificate's own, entered from the scoped rest
  at anything and returned to it after the last point. The run ends with every array of the pipeline at what the
  proof data compute for it and every other unscoped buffer as the region found it.
-/
import Idealize.ShloMosaic.Lib.Pipeline.Frame

noncomputable section

namespace Cert.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The tracking frame run for windows that may share arrays. `hsplit` deals the distinct arrays, each whole at its
    region-entry contents, among the windows at the shares the proof data name; `hin` and `hout` tie the invariant to
    the scoped rest (the scratch buffers at anything) before the first point and after the last. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.KernelFrame.lean ====
/-
  The frame of the kernel's program: under no hypothesis on the inputs' values the program runs to its end on
  every core, faults nowhere, and leaves its argument arrays as it found them; and the result array ends at what
  the 25 grid points wrote back, block by block.

  The region has six windows. Windows 1 and 2 read the SAME array, the adjacency matrix, at the even and the odd
  200-row block of each 400-row band: the array is held by the two windows at the two halves of its full share,
  which is all an input window needs. The kernel keeps one thing between grid points: its scratch buffer, which the
  first point fills with x·W and every later point only reads. So the region invariant before point 0 is the
  scratch at anything, and before every later point the scratch at x·W.
-/
import proofs.«108894_g71442486001720_cont_9to1_m_357_7_alg».proof.Proof.KernelData
import proofs.«108894_g71442486001720_cont_9to1_m_357_7_alg».proof.Proof.LibSharedFrame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 0 t, after0]
theorem leaves1 (c : Dev nD) (t : Fin cfg0.N) : (dats m 0 c).leavesExact 1 t = owns (c : Thread nD τ) (ms1 t) fullShare (iblk m c 1 t) := by
  unfold Dat.leavesExact; rw [live0 1 t, after1]
theorem leaves2 (c : Dev nD) (t : Fin cfg0.N) : (dats m 0 c).leavesExact 2 t = owns (c : Thread nD τ) (ms2 t) fullShare (iblk m c 2 t) := by
  unfold Dat.leavesExact; rw [live0 2 t, after2]
theorem leaves3 (c : Dev nD) (t : Fin cfg0.N) : (dats m 0 c).leavesExact 3 t = owns (c : Thread nD τ) (ms3 t) fullShare (iblk m c 3 t) := by
  unfold Dat.leavesExact; rw [live0 3 t, after3]
theorem leaves4 (c : Dev nD) (t : Fin cfg0.N) : (dats m 0 c).leavesExact 4 t = owns (c : Thread nD τ) (ms4 t) fullShare (iblk m c 4 t) := by
  unfold Dat.leavesExact; rw [live0 4 t, after4]
theorem leaves5 (c : Dev nD) (t : Fin cfg0.N) : (dats m 0 c).leavesExact 5 t = owns (c : Thread nD τ) (ms5 t) fullShare (outAt m c t) := by
  unfold Dat.leavesExact; rw [live0 5 t, after5]

set_option maxHeartbeats 4800000 in
/-- The body at any point. The inputs' buffers hold their blocks; at the first point the scratch holds anything and
    the run with the conditional taken leaves x·W there; at a later point the scratch holds x·W, the run with the
    conditional not taken reads it and hands it back. Either way the output's buffer ends covered by the two
    stores, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [leaves0, leaves1, leaves2, leaves3, leaves4, leaves5]
  rw [show (dats m 0 c).owesAt () t.succ = (dats m 0 c).owesAt () t.castSucc from rfl]
  rw [show (dats m 0 c).Φ t.succ = owns (c : Thread nD τ) scM fullShare (scr m c) from rfl]
  rw [show (dats m 0 c).Φ t.castSucc = PhiS m c t.val from rfl]
  by_cases hz : t.val = 0
  · obtain rfl : t = t₀ := Fin.ext hz
    rw [outAt_first m c t₀ rfl]
    rw [show PhiS m c (t₀ : Fin cfg0.N).val = Pipeline.scopedRest (Ix := Unit) (Name := ℕ) (U := UR sig nD τ) (Lvl := ℕ) (Val := Elt F) spec0 c from rfl,
      scopedRest_scratch]
    unfold scr outFirst scrFirst; (try dsimp only)
    iintro ⟨HS, Ho, ⟨%d0, H0⟩, ⟨%d1, H1⟩, ⟨%d2, H2⟩, ⟨%d3, H3⟩, ⟨%d4, H4⟩, H5⟩
    iapply ((runFirst c (grid0.coords t₀) _ _ _ _ _ _ _ _ _ _ _ _ _ _ ((hcond0 t₀).mpr rfl) (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (scoverFirst m c t₀ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst m c t₀ _)
  · rw [outAt_later m c t hz, PhiS_pos m c _ hz]
    unfold outLater; (try dsimp only)
    iintro ⟨HS, Ho, H0, ⟨%d1, H1⟩, ⟨%d2, H2⟩, H3, ⟨%d4, H4⟩, H5⟩
    iapply ((runLater c (grid0.coords t) (ms0 t) (hs0 t) _ _ _ _ (ms3 t) (hs3 t) _ _ _ _ _ _ (fun hc => hz ((hcond0 t).mp hc)) (iblk m c 1 t) (iblk m c 2 t) (iblk m c 4 t) (scr m c)).2 Set.univ _)
    isplitl [H1]; · iexact H1
    isplitl [H2]; · iexact H2
    isplitl [H4]; · iexact H4
    isplitl [H5]; · icases H5 with ⟨%d5, H5⟩; iexists _; iexact H5
    isplitl [HS]; · iexact HS
    iintro ⟨H1, H2, H4, ⟨%e5, H5⟩, HS⟩
    isplitl [HS]; · iexact HS
    isplitl [Ho]; · iexact Ho
    isplitl [H0]; · icases H0 with ⟨%d0, H0⟩; iexact H0
    isplitl [H1]; · iexact H1
    isplitl [H2]; · iexact H2
    isplitl [H3]; · icases H3 with ⟨%d3, H3⟩; iexact H3
    isplitl [H4]; · iexact H4
    unfold owns; iexists _; isplitr
    swap; · iexact H5
    ipureintro; exact View.read_writes_of_cover _ _ _ _ _ (coverLater m c t _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_scratch]
  iintro H; iexists _; iexact H

/-! ## The arrays dealt among the windows -/

/-- The distinct arrays behind the six windows. -/
theorem arrImage : Finset.univ.image (Pipeline.arrRef spec0) = [main_arg0, main_arg1, main_arg2, main_call0_v0, main_v0].toFinset := by decide

/-- The five arrays, each whole at its region-entry contents, are the six windows' arrays at their shares: the
    adjacency matrix splits into its two halves, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harrays : (dats m 0 c).arrays ((dats m 0 c).arrAt · 0)
      = bigSep Finset.univ fun w => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  have s0 : (dats m 0 c).share 0 = fullShare := rfl
  have s1 : (dats m 0 c).share 1 = fullShare.left := rfl
  have s2 : (dats m 0 c).share 2 = fullShare.right := rfl
  have s3 : (dats m 0 c).share 3 = fullShare := rfl
  have s4 : (dats m 0 c).share 4 = fullShare := rfl
  have s5 : (dats m 0 c).share 5 = fullShare := rfl
  rw [harrays]
  unfold Pipeline.arrBufs
  rw [bigSep_eq_bigSepL_of_eq _ arrImage (by decide), bigSep_W0, s0, s1, s2, s3, s4, s5]
  simp only [bigSepL_cons_cons, bigSepL_singleton]
  show iprop(_ ∗ _ ∗ _ ∗ _ ∗ _) ⊢ iprop(_ ∗ _ ∗ _ ∗ _ ∗ _ ∗ _)
  iintro ⟨H0, H1, H2, H3, H4⟩
  ihave H1' := ((pointsTo_share (PosShare.mem_left_op_right fullShare)).1) $$ H1
  icases H1' with ⟨H1a, H1b⟩
  isplitl [H0]; · iexact H0
  isplitl [H1a]; · iexact H1a
  isplitl [H1b]; · iexact H1b
  isplitl [H2]; · iexact H2
  isplitl [H3]; · iexact H3
  iexact H4

/-! ## The run and the frame -/

set_option backward.isDefEq.respectTransparency.types false in
/-- From any memory with zero counters every weakly fair execution of @main terminates, and every final state has
    every array of the pipeline at what the library computes from the proof data and the one other unscoped
    buffer, the bias vector, as the region found it. -/
theorem run_main : θ_run defs (onTc (τ := τ) (main (F := F))) (s₀ m ρ) (Pipeline.FramePost cfgs (dats m) 0 (V m)) :=
  Cert.SharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The bias vector is no window's array (the region reads its reshaped copy). -/
theorem arg3_rest : main_arg3 ∈ Pipeline.restRefs sig spec0 :=
  Pipeline.mem_restRefs_of main_arg3 rfl (by decide)

/-- The run, read at the result and the four arguments: the result array is what the write-backs of the 25 points
    left, the arguments are unchanged. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
    ((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 3).trans (((dats m 0 c).arrAt_in 3 rfl _).trans ((A_eq m c 3).trans (V_arg2 m c))),
    ((h c).2 main_arg3 arg3_rest).trans (V_arg3 m c)⟩) (run_main m ρ)

/-- THE FRAME: the program runs to its end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Body

end
-- ==== Proof.KernelIdealRuns.lean ====
/-
  What the two runs of the kernel body share: the branch condition of the body's one conditional (it is taken at
  the first grid point only, where the body computes the product x·W into its scratch buffer), the staging
  memrefs the pipeline passes the body at a point, and the scratch buffer as a memref.
-/
import proofs.«108894_g71442486001720_cont_9to1_m_357_7_alg».proof.Proof.Gen.KernelIdeal.Launch
import proofs.«108894_g71442486001720_cont_9to1_m_357_7_alg».proof.Proof.Gen.KernelIdeal.Skeleton
import proofs.«108894_g71442486001720_cont_9to1_m_357_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's conditional, from the grid coordinate: "this is grid point 0". -/
abbrev cond0 (i : grid0.Coords) : Prop :=
  (Scalar.cmpi .ne (Scalar.extui (Scalar.cmpi .eq (BitVec.ofNat 32 (i 0).val) 0#32)) 0#32) = 1#1

/-- It holds at the first of the 25 points and at no other. -/
theorem hcond0 : ∀ t : Fin cfg0.N, cond0 (grid0.coords t) ↔ t.val = 0 :=
  (by decide +kernel : ∀ t : Fin grid0.N, cond0 (grid0.coords t) ↔ t.val = 0)

/-- No window is ever idle: the body reads every input and stores the whole output block at every point. -/
theorem live0 : ∀ (w : Fin cfg0.W) (t : Fin cfg0.N), cfg0.idle w (grid0.coords t) = false := by decide +kernel

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x64 .f32 := win0_5.stage (cfg0.slots t 5)
abbrev hs5 (t : Fin cfg0.N) : (ms5 t).IsWhole := hstage0_5 ((cfg0.slots t 5).cast nbuf0_5)

/-- The scratch buffer that holds x·W from the first point on, as a whole memref and as a view. -/
abbrev scM : Memref sig .tc .vmem S10000x64 .f32 := Memref.whole cc0_scratch0
abbrev VS : View sig .tc .vmem S10000x64 .f32 := (scM : Memref sig .tc .vmem S10000x64 .f32).view
/-- One staging buffer of the output window, through which its contents are stated. -/
abbrev VO : View sig .tc .vmem S400x64 .f32 := (Memref.whole cc0_stg5_0 : Memref sig .tc .vmem S400x64 .f32).view

/-- The core's scoped buffers that are no staging buffer: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Body

end
-- ==== Proof.KernelIdealRunA.lean ====
/-
  The kernel body at the first grid point. Its conditional is taken: it loads x and W whole, stores their product
  into the scratch buffer, and then, reading the scratch back, stores rows 0..199 of the output block from the
  first adjacency block and rows 200..399 from the second. The run finds, as lists of pieces, what the output's
  staging buffer and the scratch are left holding.
-/
import proofs.«108894_g71442486001720_cont_9to1_m_357_7_alg».proof.Proof.KernelIdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the five inputs' at contents x, a1, a2, w, b, the output's and the scratch at
    anything — the body with its conditional taken runs to the continuation, the inputs as they were, the output's
    buffer with the pieces `L5` written and the scratch with the pieces `LS` written. -/
noncomputable def runFirst (c : Dev nD) (i : grid0.Coords)
    (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : cond0 i)
    (x : Vec F S10000x128 .f32) (a1 a2 : Vec F S200x10000 .f32) (w : Vec F S128x64 .f32) (b : Vec F S1x64 .f32) :
    Σ' (L5 : List (View.Piece (Elt F) S400x64 .f32)), { LS : List (View.Piece (Elt F) S10000x64 .f32) //
      ∀ (E : Set ℕ) (K : PUnit → sProp 𝕄),
        iprop(owns (c : Thread nD τ) arg1 fullShare x ∗ owns (c : Thread nD τ) arg2 fullShare a1 ∗ owns (c : Thread nD τ) arg3 fullShare a2
            ∗ owns (c : Thread nD τ) arg4 fullShare w ∗ owns (c : Thread nD τ) arg5 fullShare b
            ∗ (∃ d, owns (c : Thread nD τ) arg6 fullShare d) ∗ (∃ d, owns (c : Thread nD τ) arg7 fullShare d)
            ∗ (iprop(owns (c : Thread nD τ) arg1 fullShare x ∗ owns (c : Thread nD τ) arg2 fullShare a1 ∗ owns (c : Thread nD τ) arg3 fullShare a2
                ∗ owns (c : Thread nD τ) arg4 fullShare w ∗ owns (c : Thread nD τ) arg5 fullShare b
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Body

end
-- ==== Proof.KernelIdealRunB.lean ====
/-
  The kernel body at every grid point after the first. Its conditional is not taken: the scratch buffer still holds
  what the first point stored there, the body only reads it, and stores rows 0..199 of the output block from the
  first adjacency block and rows 200..399 from the second. The run finds, as a list of pieces, what the output's
  staging buffer is left holding; the scratch is handed back as it was.
-/
import proofs.«108894_g71442486001720_cont_9to1_m_357_7_alg».proof.Proof.KernelIdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the adjacency blocks' at a1, a2, the bias' at b, the scratch at s, the output's
    at anything; x and W are not read — the body with its conditional not taken runs to the continuation, those
    as they were and the output's buffer with the pieces `L5` written. -/
noncomputable def runLater (c : Dev nD) (i : grid0.Coords)
    (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : ¬cond0 i)
    (a1 a2 : Vec F S200x10000 .f32) (b : Vec F S1x64 .f32) (s : Vec F S10000x64 .f32) :
    { L5 : List (View.Piece (Elt F) S400x64 .f32) //
      ∀ (E : Set ℕ) (K : PUnit → sProp 𝕄),
        iprop(owns (c : Thread nD τ) arg2 fullShare a1 ∗ owns (c : Thread nD τ) arg3 fullShare a2
            ∗ owns (c : Thread nD τ) arg5 fullShare b
            ∗ (∃ d, owns (c : Thread nD τ) arg6 fullShare d) ∗ owns (c : Thread nD τ) arg7 fullShare s
            ∗ (iprop(owns (c : Thread nD τ) arg2 fullShare a1 ∗ owns (c : Thread nD τ) arg3 fullShare a2
                ∗ owns (c : Thread nD τ) arg5 fullShare b
                ∗ (∃ f, arg6.view.loc (c : Thread nD τ) ↦[arg6.view.set]{fullShare} arg6.view.writes (Elt F) f L5)
                ∗ owns (c : Thread nD τ) arg7 fullShare s) -∗ K ⟨⟩))
          ⊢ wp frame (wpE (defs₀ (F := F)) Variants.none c none) E
              (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f2, %hf2, H2⟩, ⟨%f3, %hf3, H3⟩, ⟨%f5, %hf5, H5⟩, ⟨%d6, %f6, -, H6⟩, ⟨%f7, %hf7, H7⟩, Hk⟩
    obtain rfl := harg2.eq_unread hf2; obtain rfl := harg3.eq_unread hf3
    obtain rfl := harg5.eq_unread hf5; obtain rfl := harg7.eq_unread hf7
    sl_exec (disch := exact hc)
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]; · iexists _; iexact H6
    iexists _; isplitr; · ipureintro; exact harg7.read_unread _
    iexact H7

end Cert.KernelIdeal.Body

end
-- ==== Proof.KernelIdealData.lean ====
/-
  The proof data of the kernel's one region. The arrays as the region finds them (the bias reshaped by the one host
  operation before it); each window's block at a grid point; what the two runs of the body leave in the output's
  staging buffer and in the scratch buffer, read back from the pieces the runs found; and the pipeline's data:
  every input's buffer keeps its block, the output's holds the point's two stored halves, the scratch holds x·W
  from the first point on, the two windows on the adjacency matrix hold it at the two halves of the full share.
-/
import proofs.«108894_g71442486001720_cont_9to1_m_357_7_alg».proof.Proof.KernelIdealRunA
import proofs.«108894_g71442486001720_cont_9to1_m_357_7_alg».proof.Proof.KernelIdealRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the one host operation before it, the bias
    reshaped from [64] to [1, 64]. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result buffer only: the four arguments are as the program found them. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-! ## What the body leaves -/

/-- The output block after the first point: the run's pieces read back. -/
def outFirst (c : Dev nD) (t : Fin cfg0.N) (hc : cond0 (grid0.coords t)) : Vec F S400x64 .f32 :=
  VO.read (Elt F) (VO.writes (Elt F) VO.junk
    (runFirst c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).1)

/-- The scratch after the first point: the run's pieces read back. -/
def scrFirst (c : Dev nD) (t : Fin cfg0.N) (hc : cond0 (grid0.coords t)) : Vec F S10000x64 .f32 :=
  VS.read (Elt F) (VS.writes (Elt F) VS.junk
    (runFirst c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).2.1)

/-- The output block after a later point, the scratch holding `s`: the run's pieces read back. -/
def outLater (c : Dev nD) (t : Fin cfg0.N) (hc : ¬cond0 (grid0.coords t)) (s : Vec F S10000x64 .f32) : Vec F S400x64 .f32 :=
  VO.read (Elt F) (VO.writes (Elt F) VO.junk
    (runLater c (grid0.coords t) (ms0 t) (hs0 t) (ms1 t) (hs1 t) (ms2 t) (hs2 t) (ms3 t) (hs3 t) (ms4 t) (hs4 t) (ms5 t) (hs5 t) scM (Memref.isWhole_whole _) hc (iblk m c 1 t) (iblk m c 2 t) (iblk m c 4 t) s).1)

/-- The first point's two stores tile the 400-row output block. -/
theorem coverFirst (c : Dev nD) (t : Fin cfg0.N) (hc : cond0 (grid0.coords t)) (y : S400x64.Idx) :
    ∃ pc ∈ (runFirst (F := F) c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).1, y ∈ pc.1.set :=
  View.cover_of_tiledL (s := S400x64) _ S200x64.size (by sl_kernel_rfl) y

/-- Its store into the scratch covers the scratch. -/
theorem scoverFirst (c : Dev nD) (t : Fin cfg0.N) (hc : cond0 (grid0.coords t)) (y : S10000x64.Idx) :
    ∃ pc ∈ (runFirst (F := F) c (grid0.coords t) (ms0 t) (hs0 t) (ms1 t) (hs1 t) (ms2 t) (hs2 t) (ms3 t) (hs3 t) (ms4 t) (hs4 t) (ms5 t) (hs5 t) scM (Memref.isWhole_whole _) hc (iblk m c 0 t) (iblk m c 1 t) (iblk m c 2 t) (iblk m c 3 t) (iblk m c 4 t)).2.1, y ∈ pc.1.set :=
  View.cover_of_tiledL _ S10000x64.size (by sl_kernel_rfl) y

/-- A later point's two stores tile the output block. -/
theorem coverLater (c : Dev nD) (t : Fin cfg0.N) (hc : ¬cond0 (grid0.coords t)) (s : Vec F S10000x64 .f32) (y : S400x64.Idx) :
    ∃ pc ∈ (runLater (F := F) c (grid0.coords t) (ms0 t) (hs0 t) (ms1 t) (hs1 t) (ms2 t) (hs2 t) (ms3 t) (hs3 t) (ms4 t) (hs4 t) (ms5 t) (hs5 t) scM (Memref.isWhole_whole _) hc (iblk m c 1 t) (iblk m c 2 t) (iblk m c 4 t) s).1, y ∈ pc.1.set :=
  View.cover_of_tiledL (s := S400x64) _ S200x64.size (by sl_kernel_rfl) y

/-- What the scratch holds from the first point on. -/
def scr (c : Dev nD) : Vec F S10000x64 .f32 := scrFirst m c t₀ ((hcond0 t₀).mpr rfl)

/-- What the output's staging buffer holds after the body at point `t`. -/
def outAt (c : Dev nD) (t : Fin cfg0.N) : Vec F S400x64 .f32 :=
  if h : t.val = 0 then outFirst m c t ((hcond0 t).mpr h) else outLater m c t (fun hc => h ((hcond0 t).mp hc)) (scr m c)

theorem outAt_first (c : Dev nD) (t : Fin cfg0.N) (h : t.val = 0) : outAt m c t = outFirst m c t ((hcond0 t).mpr h) := dif_pos h
theorem outAt_later (c : Dev nD) (t : Fin cfg0.N) (h : ¬t.val = 0) :
    outAt m c t = outLater m c t (fun hc => h ((hcond0 t).mp hc)) (scr m c) := dif_neg h

/-- The region invariant before position `n`: the scratch at anything before the first point, at x·W afterwards. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

theorem PhiS_pos (c : Dev nD) (n : ℕ) (hn : n ≠ 0) : PhiS m c n = owns (c : Thread nD τ) scM fullShare (scr m c) := by
  cases n with
  | zero => exact absurd rfl hn
  | succ n => rfl

/-! ## The pipeline's proof data -/

/-- The arrays as the region finds them; after the body each input's buffer at its block and the output's at
    `outAt`; the two windows on the adjacency matrix at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- An input's current staging buffer holds its block at every point, fetched there or not: unfetched, the index
    has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.Body

end
-- ==== Proof.KernelIdealFrame.lean ====
/-
  The frame of the kernel's program: under no hypothesis on the inputs' values the program runs to its end on
  every core, faults nowhere, and leaves its argument arrays as it found them; and the result array ends at what
  the 25 grid points wrote back, block by block.

  The region has six windows. Windows 1 and 2 read the SAME array, the adjacency matrix, at the even and the odd
  200-row block of each 400-row band: the array is held by the two windows at the two halves of its full share,
  which is all an input window needs. The kernel keeps one thing between grid points: its scratch buffer, which the
  first point fills with x·W and every later point only reads. So the region invariant before point 0 is the
  scratch at anything, and before every later point the scratch at x·W.
-/
import proofs.«108894_g71442486001720_cont_9to1_m_357_7_alg».proof.Proof.KernelIdealData
import proofs.«108894_g71442486001720_cont_9to1_m_357_7_alg».proof.Proof.LibSharedFrame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 0 t, after0]
theorem leaves1 (c : Dev nD) (t : Fin cfg0.N) : (dats m 0 c).leavesExact 1 t = owns (c : Thread nD τ) (ms1 t) fullShare (iblk m c 1 t) := by
  unfold Dat.leavesExact; rw [live0 1 t, after1]
theorem leaves2 (c : Dev nD) (t : Fin cfg0.N) : (dats m 0 c).leavesExact 2 t = owns (c : Thread nD τ) (ms2 t) fullShare (iblk m c 2 t) := by
  unfold Dat.leavesExact; rw [live0 2 t, after2]
theorem leaves3 (c : Dev nD) (t : Fin cfg0.N) : (dats m 0 c).leavesExact 3 t = owns (c : Thread nD τ) (ms3 t) fullShare (iblk m c 3 t) := by
  unfold Dat.leavesExact; rw [live0 3 t, after3]
theorem leaves4 (c : Dev nD) (t : Fin cfg0.N) : (dats m 0 c).leavesExact 4 t = owns (c : Thread nD τ) (ms4 t) fullShare (iblk m c 4 t) := by
  unfold Dat.leavesExact; rw [live0 4 t, after4]
theorem leaves5 (c : Dev nD) (t : Fin cfg0.N) : (dats m 0 c).leavesExact 5 t = owns (c : Thread nD τ) (ms5 t) fullShare (outAt m c t) := by
  unfold Dat.leavesExact; rw [live0 5 t, after5]

set_option maxHeartbeats 4800000 in
/-- The body at any point. The inputs' buffers hold their blocks; at the first point the scratch holds anything and
    the run with the conditional taken leaves x·W there; at a later point the scratch holds x·W, the run with the
    conditional not taken reads it and hands it back. Either way the output's buffer ends covered by the two
    stores, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [leaves0, leaves1, leaves2, leaves3, leaves4, leaves5]
  rw [show (dats m 0 c).owesAt () t.succ = (dats m 0 c).owesAt () t.castSucc from rfl]
  rw [show (dats m 0 c).Φ t.succ = owns (c : Thread nD τ) scM fullShare (scr m c) from rfl]
  rw [show (dats m 0 c).Φ t.castSucc = PhiS m c t.val from rfl]
  by_cases hz : t.val = 0
  · obtain rfl : t = t₀ := Fin.ext hz
    rw [outAt_first m c t₀ rfl]
    rw [show PhiS m c (t₀ : Fin cfg0.N).val = Pipeline.scopedRest (Ix := Unit) (Name := ℕ) (U := UR sig nD τ) (Lvl := ℕ) (Val := Elt F) spec0 c from rfl,
      scopedRest_scratch]
    unfold scr outFirst scrFirst; (try dsimp only)
    iintro ⟨HS, Ho, ⟨%d0, H0⟩, ⟨%d1, H1⟩, ⟨%d2, H2⟩, ⟨%d3, H3⟩, ⟨%d4, H4⟩, H5⟩
    iapply ((runFirst c (grid0.coords t₀) _ _ _ _ _ _ _ _ _ _ _ _ _ _ ((hcond0 t₀).mpr rfl) (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (scoverFirst m c t₀ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst m c t₀ _)
  · rw [outAt_later m c t hz, PhiS_pos m c _ hz]
    unfold outLater; (try dsimp only)
    iintro ⟨HS, Ho, H0, ⟨%d1, H1⟩, ⟨%d2, H2⟩, H3, ⟨%d4, H4⟩, H5⟩
    iapply ((runLater c (grid0.coords t) (ms0 t) (hs0 t) _ _ _ _ (ms3 t) (hs3 t) _ _ _ _ _ _ (fun hc => hz ((hcond0 t).mp hc)) (iblk m c 1 t) (iblk m c 2 t) (iblk m c 4 t) (scr m c)).2 Set.univ _)
    isplitl [H1]; · iexact H1
    isplitl [H2]; · iexact H2
    isplitl [H4]; · iexact H4
    isplitl [H5]; · icases H5 with ⟨%d5, H5⟩; iexists _; iexact H5
    isplitl [HS]; · iexact HS
    iintro ⟨H1, H2, H4, ⟨%e5, H5⟩, HS⟩
    isplitl [HS]; · iexact HS
    isplitl [Ho]; · iexact Ho
    isplitl [H0]; · icases H0 with ⟨%d0, H0⟩; iexact H0
    isplitl [H1]; · iexact H1
    isplitl [H2]; · iexact H2
    isplitl [H3]; · icases H3 with ⟨%d3, H3⟩; iexact H3
    isplitl [H4]; · iexact H4
    unfold owns; iexists _; isplitr
    swap; · iexact H5
    ipureintro; exact View.read_writes_of_cover _ _ _ _ _ (coverLater m c t _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_scratch]
  iintro H; iexists _; iexact H

/-! ## The arrays dealt among the windows -/

/-- The distinct arrays behind the six windows. -/
theorem arrImage : Finset.univ.image (Pipeline.arrRef spec0) = [main_arg0, main_arg1, main_arg2, main_call0_v0, main_v0].toFinset := by decide

/-- The five arrays, each whole at its region-entry contents, are the six windows' arrays at their shares: the
    adjacency matrix splits into its two halves, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harrays : (dats m 0 c).arrays ((dats m 0 c).arrAt · 0)
      = bigSep Finset.univ fun w => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  have s0 : (dats m 0 c).share 0 = fullShare := rfl
  have s1 : (dats m 0 c).share 1 = fullShare.left := rfl
  have s2 : (dats m 0 c).share 2 = fullShare.right := rfl
  have s3 : (dats m 0 c).share 3 = fullShare := rfl
  have s4 : (dats m 0 c).share 4 = fullShare := rfl
  have s5 : (dats m 0 c).share 5 = fullShare := rfl
  rw [harrays]
  unfold Pipeline.arrBufs
  rw [bigSep_eq_bigSepL_of_eq _ arrImage (by decide), bigSep_W0, s0, s1, s2, s3, s4, s5]
  simp only [bigSepL_cons_cons, bigSepL_singleton]
  show iprop(_ ∗ _ ∗ _ ∗ _ ∗ _) ⊢ iprop(_ ∗ _ ∗ _ ∗ _ ∗ _ ∗ _)
  iintro ⟨H0, H1, H2, H3, H4⟩
  ihave H1' := ((pointsTo_share (PosShare.mem_left_op_right fullShare)).1) $$ H1
  icases H1' with ⟨H1a, H1b⟩
  isplitl [H0]; · iexact H0
  isplitl [H1a]; · iexact H1a
  isplitl [H1b]; · iexact H1b
  isplitl [H2]; · iexact H2
  isplitl [H3]; · iexact H3
  iexact H4

/-! ## The run and the frame -/

set_option backward.isDefEq.respectTransparency.types false in
/-- From any memory with zero counters every weakly fair execution of @main terminates, and every final state has
    every array of the pipeline at what the library computes from the proof data and the one other unscoped
    buffer, the bias vector, as the region found it. -/
theorem run_main : θ_run defs (onTc (τ := τ) (main (F := F))) (s₀ m ρ) (Pipeline.FramePost cfgs (dats m) 0 (V m)) :=
  Cert.SharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The bias vector is no window's array (the region reads its reshaped copy). -/
theorem arg3_rest : main_arg3 ∈ Pipeline.restRefs sig spec0 :=
  Pipeline.mem_restRefs_of main_arg3 rfl (by decide)

/-- The run, read at the result and the four arguments: the result array is what the write-backs of the 25 points
    left, the arguments are unchanged. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
    ((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 3).trans (((dats m 0 c).arrAt_in 3 rfl _).trans ((A_eq m c 3).trans (V_arg2 m c))),
    ((h c).2 main_arg3 arg3_rest).trans (V_arg3 m c)⟩) (run_main m ρ)

/-- THE FRAME: the program runs to its end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Body

end
-- ==== Proof.KernelIdealPieces.lean ====
/-
  The pieces the two runs of the body found, read back as values. The first point's one store into the scratch
  covers it whole, so the scratch holds the stored product x·W. Every point stores its [400, 64] output block as
  two halves, rows 0..199 first and rows 200..399 last: a row below 200 lies outside the later store's rectangle
  and reads the earlier store's value, a row from 200 on reads the later store's. Each half is a function of one
  adjacency block, the scratch and the bias row. At the first point the scratch is read back after it was stored
  in the same run and reads as x·W, which is also what it holds at every later point: so at every point the two
  halves are the same two functions of the point's blocks and of the scratch from the first point on.
-/
import proofs.«108894_g71442486001720_cont_9to1_m_357_7_alg».proof.Proof.KernelIdealData
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The offsets (0, 0), however they are spelt. -/
theorem hz : (![0, 0] : Fin 2 → Nat) = fun _ => 0 :=
  funext fun a => match a with | ⟨0, _⟩ => rfl | ⟨1, _⟩ => rfl

/-! ## A block stored as two halves -/
section Halves
variable {Val : EltTy → Type} [∀ e, Nonempty (Val e)]
variable (inb0 : ∀ a, (![0, 0] : Fin 2 → Nat) a + S200x64.size a ≤ S400x64.size a)
  (inb1 : ∀ a, (![200, 0] : Fin 2 → Nat) a + S200x64.size a ≤ S400x64.size a)
  (P Q : S200x64.Idx → Val .f32) (L : List (View.Piece Val S400x64 .f32))

/-- A row below 200 is outside the rectangle of rows 200..399. -/
theorem top_not_mem (r : Fin 200) (q : Fin 64) (hr : r.val < 400) :
    ix2 (⟨r.val, hr⟩ : Fin 400) q ∉ (Rect.unit (s := S400x64) ![200, 0] S200x64.size inb1).set := by
  rw [Rect.mem_set_unit]; intro h
  have h0 : 200 ≤ r.val := (h 0).1
  have := r.isLt; omega

/-- Row r of the block is row r of the rectangle of rows 0..199. -/
theorem top_emb (r : Fin 200) (q : Fin 64) (hr : r.val < 400) :
    (Rect.unit (s := S400x64) ![0, 0] S200x64.size inb0).emb (ix2 r q) = ix2 (⟨r.val, hr⟩ : Fin 400) q := by
  funext a
  match a with
  | ⟨0, _⟩ => exact Fin.ext (by show 0 + 1 * r.val = r.val; omega)
  | ⟨1, _⟩ => exact Fin.ext (by show 0 + 1 * q.val = q.val; omega)

/-- Row 200 + r of the block is row r of the rectangle of rows 200..399. -/
theorem bot_emb (r : Fin 200) (q : Fin 64) (hr : 200 + r.val < 400) :
    (Rect.unit (s := S400x64) ![200, 0] S200x64.size inb1).emb (ix2 r q) = ix2 (⟨200 + r.val, hr⟩ : Fin 400) q := by
  funext a
  match a with
  | ⟨0, _⟩ => exact Fin.ext (by show 200 + 1 * r.val = 200 + r.val; omega)
  | ⟨1, _⟩ => exact Fin.ext (by show 0 + 1 * q.val = q.val; omega)

/-- The 400-row block stored as two halves, rows 200..399 last: a row below 200 reads the earlier store. -/
theorem canon_halves_top (r : Fin 200) (q : Fin 64) (hr : r.val < 400) :
    View.canon ((⟨Rect.unit (s := S400x64) ![200, 0] S200x64.size inb1, Q⟩ : View.Piece Val S400x64 .f32)
        :: ⟨Rect.unit (s := S400x64) ![0, 0] S200x64.size inb0, P⟩ :: L) (ix2 (⟨r.val, hr⟩ : Fin 400) q) = P (ix2 r q) :=
  (View.canon_cons_of_not_mem (⟨Rect.unit (s := S400x64) ![200, 0] S200x64.size inb1, Q⟩ : View.Piece Val S400x64 .f32)
      (⟨Rect.unit (s := S400x64) ![0, 0] S200x64.size inb0, P⟩ :: L) (top_not_mem inb1 r q hr)).trans
    ((congrArg (View.canon ((⟨Rect.unit (s := S400x64) ![0, 0] S200x64.size inb0, P⟩ : View.Piece Val S400x64 .f32) :: L)) (top_emb inb0 r q hr).symm).trans
      (View.canon_cons_emb (Rect.unit (s := S400x64) ![0, 0] S200x64.size inb0) P L (ix2 r q)))

/-- A row from 200 on reads the later store. -/
theorem canon_halves_bot (r : Fin 200) (q : Fin 64) (hr : 200 + r.val < 400) :
    View.canon ((⟨Rect.unit (s := S400x64) ![200, 0] S200x64.size inb1, Q⟩ : View.Piece Val S400x64 .f32)
        :: ⟨Rect.unit (s := S400x64) ![0, 0] S200x64.size inb0, P⟩ :: L) (ix2 (⟨200 + r.val, hr⟩ : Fin 400) q) = Q (ix2 r q) :=
  (congrArg (View.canon ((⟨Rect.unit (s := S400x64) ![200, 0] S200x64.size inb1, Q⟩ : View.Piece Val S400x64 .f32)
        :: ⟨Rect.unit (s := S400x64) ![0, 0] S200x64.size inb0, P⟩ :: L)) (bot_emb inb1 r q hr).symm).trans
    (View.canon_cons_emb (Rect.unit (s := S400x64) ![200, 0] S200x64.size inb1) Q
      ((⟨Rect.unit (s := S400x64) ![0, 0] S200x64.size inb0, P⟩ : View.Piece Val S400x64 .f32) :: L) (ix2 r q))

end Halves

/-! ## What each run leaves, over any whole memrefs and any contents -/

/-- The first point leaves x·W in the scratch. -/
theorem first_scr (c : Dev nD) (i : grid0.Coords) (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : cond0 i)
    (x : Vec F S10000x128 .f32) (a1 a2 : Vec F S200x10000 .f32) (w : Vec F S128x64 .f32) (b : Vec F S1x64 .f32) :
    VS.read (Elt F) (VS.writes (Elt F) VS.junk (runFirst c i arg1 harg1 arg2 harg2 arg3 harg3 arg4 harg4 arg5 harg5 arg6 harg6 arg7 harg7 hc x a1 a2 w b).2.1) = k0_pay1 x w := by
  rw [View.read_writes_junk_eq_canon]
  unfold runFirst
  dsimp only
  try sl_unfold_words
  rw [View.canon_unit_zero hz]
  simp only [View.readAt_eq_ld, harg1.read_unread, harg4.read_unread, View.ld_unit_zero (S := S10000x128) hz, View.ld_unit_zero (S := S128x64) hz]

/-- The first point's two stores into the output block, the scratch read back as x·W. -/
theorem first_out (c : Dev nD) (i : grid0.Coords) (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : cond0 i)
    (x : Vec F S10000x128 .f32) (a1 a2 : Vec F S200x10000 .f32) (w : Vec F S128x64 .f32) (b : Vec F S1x64 .f32) :
    VO.read (Elt F) (VO.writes (Elt F) VO.junk (runFirst c i arg1 harg1 arg2 harg2 arg3 harg3 arg4 harg4 arg5 harg5 arg6 harg6 arg7 harg7 hc x a1 a2 w b).1)
      = View.canon [(⟨Rect.unit (s := S400x64) ![200, 0] S200x64.size inb_S400x64_S200x64_200_0, k0_pay3 a2 (k0_pay1 x w) b⟩ : View.Piece (Elt F) S400x64 .f32),
          ⟨Rect.unit (s := S400x64) ![0, 0] S200x64.size inb_S400x64_S200x64_0_0, k0_pay2 a1 (k0_pay1 x w) b⟩] := by
  rw [View.read_writes_junk_eq_canon]
  unfold runFirst
  dsimp only
  try sl_unfold_words
  simp only [View.readAt_eq_ld, harg1.read_unread, harg2.read_unread, harg3.read_unread, harg4.read_unread, harg5.read_unread,
    View.readCov_unit_zero (S := S10000x64) _ hz,
    View.ld_unit_zero (S := S10000x128) hz, View.ld_unit_zero (S := S128x64) hz, View.ld_unit_zero (S := S200x10000) hz, View.ld_unit_zero (S := S1x64) hz]

/-- A later point's two stores into the output block, the scratch holding s. -/
theorem later_out (c : Dev nD) (i : grid0.Coords) (arg1 : Memref sig .tc .vmem S10000x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S400x64 .f32) (harg6 : arg6.IsWhole)
    (arg7 : Memref sig .tc .vmem S10000x64 .f32) (harg7 : arg7.IsWhole) (hc : ¬cond0 i)
    (a1 a2 : Vec F S200x10000 .f32) (b : Vec F S1x64 .f32) (s : Vec F S10000x64 .f32) :
    VO.read (Elt F) (VO.writes (Elt F) VO.junk (runLater c i arg1 harg1 arg2 harg2 arg3 harg3 arg4 harg4 arg5 harg5 arg6 harg6 arg7 harg7 hc a1 a2 b s).1)
      = View.canon [(⟨Rect.unit (s := S400x64) ![200, 0] S200x64.size inb_S400x64_S200x64_200_0, k0_pay3 a2 s b⟩ : View.Piece (Elt F) S400x64 .f32),
          ⟨Rect.unit (s := S400x64) ![0, 0] S200x64.size inb_S400x64_S200x64_0_0, k0_pay2 a1 s b⟩] := by
  rw [View.read_writes_junk_eq_canon]
  unfold runLater
  dsimp only
  try sl_unfold_words
  simp only [View.readAt_eq_ld, harg2.read_unread, harg3.read_unread, harg5.read_unread, harg7.read_unread,
    View.ld_unit_zero (S := S10000x64) hz, View.ld_unit_zero (S := S200x10000) hz, View.ld_unit_zero (S := S1x64) hz]

/-! ## At the pipeline's memrefs and blocks -/

/-- From the first point on the scratch holds x·W. -/
theorem scr_eq (c : Dev nD) : scr m c = k0_pay1 (iblk m c 0 t₀) (iblk m c 3 t₀) := by
  unfold scr scrFirst
  exact first_scr c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((hcond0 t₀).mpr rfl) (iblk m c 0 t₀) (iblk m c 1 t₀) (iblk m c 2 t₀) (iblk m c 3 t₀) (iblk m c 4 t₀)

/-- Rows 0..199 of the output block at any point, the first point included: the maximum with zero of the first
    adjacency block times the scratch plus the bias row. -/
theorem outAt_top (c : Dev nD) (t : Fin cfg0.N) (r : Fin 200) (q : Fin 64) :
    outAt m c t (ix2 (⟨r.val, by have := r.isLt; omega⟩ : Fin 400) q) = k0_pay2 (iblk m c 1 t) (scr m c) (iblk m c 4 t) (ix2 r q) := by
  by_cases h : t.val = 0
  · obtain rfl : t = t₀ := Fin.ext h
    rw [outAt_first m c t₀ h, scr_eq m c]
    unfold outFirst
    refine (congrFun (first_out c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((hcond0 t₀).mpr h) (iblk m c 0 t₀) (iblk m c 1 t₀) (iblk m c 2 t₀) (iblk m c 3 t₀) (iblk m c 4 t₀)) _).trans ?_
    exact canon_halves_top (Val := Elt F) inb_S400x64_S200x64_0_0 inb_S400x64_S200x64_200_0
      (k0_pay2 (iblk m c 1 t₀) (k0_pay1 (iblk m c 0 t₀) (iblk m c 3 t₀)) (iblk m c 4 t₀)) (k0_pay3 (iblk m c 2 t₀) (k0_pay1 (iblk m c 0 t₀) (iblk m c 3 t₀)) (iblk m c 4 t₀)) [] r q _
  · rw [outAt_later m c t h]
    unfold outLater
    refine (congrFun (later_out c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 1 t) (iblk m c 2 t) (iblk m c 4 t) (scr m c)) _).trans ?_
    exact canon_halves_top (Val := Elt F) inb_S400x64_S200x64_0_0 inb_S400x64_S200x64_200_0
      (k0_pay2 (iblk m c 1 t) (scr m c) (iblk m c 4 t)) (k0_pay3 (iblk m c 2 t) (scr m c) (iblk m c 4 t)) [] r q _

/-- Rows 200..399 likewise, from the second adjacency block. -/
theorem outAt_bot (c : Dev nD) (t : Fin cfg0.N) (r : Fin 200) (q : Fin 64) :
    outAt m c t (ix2 (⟨200 + r.val, by have := r.isLt; omega⟩ : Fin 400) q) = k0_pay3 (iblk m c 2 t) (scr m c) (iblk m c 4 t) (ix2 r q) := by
  by_cases h : t.val = 0
  · obtain rfl : t = t₀ := Fin.ext h
    rw [outAt_first m c t₀ h, scr_eq m c]
    unfold outFirst
    refine (congrFun (first_out c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((hcond0 t₀).mpr h) (iblk m c 0 t₀) (iblk m c 1 t₀) (iblk m c 2 t₀) (iblk m c 3 t₀) (iblk m c 4 t₀)) _).trans ?_
    exact canon_halves_bot (Val := Elt F) inb_S400x64_S200x64_0_0 inb_S400x64_S200x64_200_0
      (k0_pay2 (iblk m c 1 t₀) (k0_pay1 (iblk m c 0 t₀) (iblk m c 3 t₀)) (iblk m c 4 t₀)) (k0_pay3 (iblk m c 2 t₀) (k0_pay1 (iblk m c 0 t₀) (iblk m c 3 t₀)) (iblk m c 4 t₀)) [] r q _
  · rw [outAt_later m c t h]
    unfold outLater
    refine (congrFun (later_out c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 1 t) (iblk m c 2 t) (iblk m c 4 t) (scr m c)) _).trans ?_
    exact canon_halves_bot (Val := Elt F) inb_S400x64_S200x64_0_0 inb_S400x64_S200x64_200_0
      (k0_pay2 (iblk m c 1 t) (scr m c) (iblk m c 4 t)) (k0_pay3 (iblk m c 2 t) (scr m c) (iblk m c 4 t)) [] r q _

end Cert.KernelIdeal.Body

end
-- ==== Proof.KernelIdealBlocks.lean ====
/-
  The windows' blocks as entries of the argument arrays. A block's entry at a coordinate inside the block is the
  array's entry at (block index × block size + the coordinate), axis by axis. The index maps over the 25 grid
  points: windows 0, 3 and 4 always sit at block (0, 0) and their block is the whole array (x [10000, 128],
  W [128, 64], the bias as [1, 64]); window 1 sits at block (2t, 0) and window 2 at block (2t + 1, 0) of the
  adjacency matrix cut into [200, 10000] blocks, so they hold its rows 400t … 400t + 199 and 400t + 200 … 400t + 399.
  The bias array the region reads is the [64] argument reshaped to [1, 64] before the region: its entry (0, q) is the
  argument's entry q.
-/
import proofs.«108894_g71442486001720_cont_9to1_m_357_7_alg».proof.Proof.KernelIdealData
import Idealize.ShloMosaic.Lib.ValueIdx
import Idealize.ShloMosaic.Lib.ValueLayout

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The index maps over the grid -/

/-- Window 0 (x) sits at block (0, 0) at every point. -/
theorem idx0 : ∀ t : Fin cfg0.N, win0_0.index t (0 : Fin 2) = 0 ∧ win0_0.index t (1 : Fin 2) = 0 :=
  (by decide +kernel : ∀ t : Fin grid0.N, _)
/-- Window 1 (the upper half of the point's rows of the adjacency matrix) sits at block (2t, 0). -/
theorem idx1 : ∀ t : Fin cfg0.N, win0_1.index t (0 : Fin 2) = 2 * t.val ∧ win0_1.index t (1 : Fin 2) = 0 :=
  (by decide +kernel : ∀ t : Fin grid0.N, _)
/-- Window 2 (the lower half) sits at block (2t + 1, 0). -/
theorem idx2 : ∀ t : Fin cfg0.N, win0_2.index t (0 : Fin 2) = 2 * t.val + 1 ∧ win0_2.index t (1 : Fin 2) = 0 :=
  (by decide +kernel : ∀ t : Fin grid0.N, _)
/-- Window 3 (W) sits at block (0, 0) at every point. -/
theorem idx3 : ∀ t : Fin cfg0.N, win0_3.index t (0 : Fin 2) = 0 ∧ win0_3.index t (1 : Fin 2) = 0 :=
  (by decide +kernel : ∀ t : Fin grid0.N, _)
/-- Window 4 (the bias) sits at block (0, 0) at every point. -/
theorem idx4 : ∀ t : Fin cfg0.N, win0_4.index t (0 : Fin 2) = 0 ∧ win0_4.index t (1 : Fin 2) = 0 :=
  (by decide +kernel : ∀ t : Fin grid0.N, _)

/-! ## The bias as the region finds it -/

/-- The reshape before the region leaves, in its result array, the [64] bias argument read as [1, 64]. -/
theorem V_bias (c : Dev nD) :
    (V m c main_call0_v0 : S1x64.Idx → Elt F .f32)
      = shapeCast S1x64 (m ((c : Thread nD τ).loc main_arg3)) Facts₀.shapeCasts_S64_S1x64 := by
  dsimp only [V, V0, hostOps0]; after_results; rfl

/-! ## The blocks -/

/-- Window 0's block is x: block (0, 0) of size [10000, 128] of a [10000, 128] array. -/
theorem blk_x (c : Dev nD) (k : Fin 10000) (j : Fin 128) :
    (iblk m c 0 t₀ : Vec F S10000x128 .f32) (ix2 k j) = m ((c : Thread nD τ).loc main_arg0) (ix2 k j) := by
  unfold iblk
  rw [View.read_apply]
  show V m c main_arg0 _ = m _ _
  rw [V_arg0]
  congr 1
  funext a
  apply Fin.ext
  match a with
  | ⟨0, _⟩ => show win0_0.index t₀ 0 * 10000 + 1 * k.val = k.val; rw [(idx0 t₀).1]; omega
  | ⟨1, _⟩ => show win0_0.index t₀ 1 * 128 + 1 * j.val = j.val; rw [(idx0 t₀).2]; omega

/-- Window 3's block is W: block (0, 0) of size [128, 64] of a [128, 64] array. -/
theorem blk_w (c : Dev nD) (j : Fin 128) (q : Fin 64) :
    (iblk m c 3 t₀ : Vec F S128x64 .f32) (ix2 j q) = m ((c : Thread nD τ).loc main_arg2) (ix2 j q) := by
  unfold iblk
  rw [View.read_apply]
  show V m c main_arg2 _ = m _ _
  rw [V_arg2]
  congr 1
  funext a
  apply Fin.ext
  match a with
  | ⟨0, _⟩ => show win0_3.index t₀ 0 * 128 + 1 * j.val = j.val; rw [(idx3 t₀).1]; omega
  | ⟨1, _⟩ => show win0_3.index t₀ 1 * 64 + 1 * q.val = q.val; rw [(idx3 t₀).2]; omega

/-- Window 1's block at point t is rows 400t … 400t + 199 of the adjacency matrix: row 2t · 200 + r. -/
theorem blk_a1 (c : Dev nD) (t : Fin cfg0.N) (r : Fin 200) (k : Fin 10000) (h : 400 * t.val + r.val < 10000) :
    (iblk m c 1 t : Vec F S200x10000 .f32) (ix2 r k) = m ((c : Thread nD τ).loc main_arg1) (ix2 (⟨400 * t.val + r.val, h⟩ : Fin 10000) k) := by
  unfold iblk
  rw [View.read_apply]
  show V m c main_arg1 _ = m _ _
  rw [V_arg1]
  congr 1
  funext a
  apply Fin.ext
  match a with
  | ⟨0, _⟩ => show win0_1.index t 0 * 200 + 1 * r.val = 400 * t.val + r.val; rw [(idx1 t).1]; omega
  | ⟨1, _⟩ => show win0_1.index t 1 * 10000 + 1 * k.val = k.val; rw [(idx1 t).2]; omega

/-- Window 2's block at point t is rows 400t + 200 … 400t + 399 of the adjacency matrix: row (2t + 1) · 200 + r. -/
theorem blk_a2 (c : Dev nD) (t : Fin cfg0.N) (r : Fin 200) (k : Fin 10000) (h : 400 * t.val + 200 + r.val < 10000) :
    (iblk m c 2 t : Vec F S200x10000 .f32) (ix2 r k) = m ((c : Thread nD τ).loc main_arg1) (ix2 (⟨400 * t.val + 200 + r.val, h⟩ : Fin 10000) k) := by
  unfold iblk
  rw [View.read_apply]
  show V m c main_arg1 _ = m _ _
  rw [V_arg1]
  congr 1
  funext a
  apply Fin.ext
  match a with
  | ⟨0, _⟩ => show win0_2.index t 0 * 200 + 1 * r.val = 400 * t.val + 200 + r.val; rw [(idx2 t).1]; omega
  | ⟨1, _⟩ => show win0_2.index t 1 * 10000 + 1 * k.val = k.val; rw [(idx2 t).2]; omega

/-- Window 4's block is the reshaped bias, whose entry (0, q) is the [64] argument's entry q. -/
theorem blk_b (c : Dev nD) (t : Fin cfg0.N) (q : Fin 64) :
    (iblk m c 4 t : Vec F S1x64 .f32) (ix2 (0 : Fin 1) q) = m ((c : Thread nD τ).loc main_arg3) (ix1 q) := by
  unfold iblk
  rw [View.read_apply]
  show (V m c main_call0_v0 : S1x64.Idx → Elt F .f32) _ = m ((c : Thread nD τ).loc main_arg3) (ix1 q)
  rw [V_bias]
  refine Eq.trans ?_ (shapeCast_a_1a_apply (m ((c : Thread nD τ).loc main_arg3)) Facts₀.shapeCasts_S64_S1x64 (0 : Fin 1) q)
  congr 1
  funext a
  apply Fin.ext
  match a with
  | ⟨0, _⟩ => show win0_4.index t 0 * 1 + 1 * 0 = 0; rw [(idx4 t).1]
  | ⟨1, _⟩ => show win0_4.index t 1 * 64 + 1 * q.val = q.val; rw [(idx4 t).2]; omega

end Cert.KernelIdeal.Body

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KernelIdealPayload.lean ====
/-
  The three values the kernel body stores, read at an entry over the extended reals: the product x·W the first
  grid point leaves in the scratch buffer, and the two 200-row halves of an output block, each
  max (a·s + b, 0) for an adjacency block a, the scratch s and the bias row b.
-/
import proofs.«108894_g71442486001720_cont_9to1_m_357_7_alg».proof.Proof.Gen.KernelIdeal.Skeleton
import proofs.«108894_g71442486001720_cont_9to1_m_357_7_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen

variable [Cert.KernelIdeal.Facts]

/-- The kernel's two contraction records are the plain rows-by-columns products of their sizes. -/
theorem dot_xw : dot_S10000x128_S128x64_S10000x64_1_0_0_1_n_n = DotDims.plain 10000 128 64 := rfl
theorem dot_as : dot_S200x10000_S10000x64_S200x64_1_0_0_1_n_n = DotDims.plain 200 10000 64 := rfl

/-- The scratch's contents at (k, q): the sum over the 128 features j of x (k, j) · w (j, q). -/
theorem pay1_apply (x : Vec Ideal S10000x128 .f32) (w : Vec Ideal S128x64 .f32) (k : Fin 10000) (q : Fin 64) :
    k0_pay1 (F := Ideal) x w (ix2 k q) = ∑ j : Fin 128, x (ix2 k j) * w (ix2 j q) := by
  unfold k0_pay1
  refine (congrFun (shapeCast_self _ Facts₀.shapeCasts_S10000x64_S10000x64) (ix2 k q)).trans ?_
  rw [dot_xw]
  exact Cert.PlainProduct.matmul_zero_apply none x w k q

/-- A half block at (r, q): max (Σₖ a (r, k) · s (k, q) + b (0, q)) 0. -/
theorem half_apply (a : FVec Ideal S200x10000 .f32) (s : FVec Ideal S10000x64 .f32) (b : FVec Ideal S1x64 .f32) (r : Fin 200) (q : Fin 64) :
    maximumf (addf (matmul (F := Ideal) dot_S200x10000_S10000x64_S200x64_1_0_0_1_n_n none a s (constant (F := Ideal) S200x64 .f32 0x00000000#32))
          (broadcastTo S200x64 (shapeCast S1x64 b Facts₀.shapeCasts_S1x64_S1x64) Facts₀.broadcasts_S1x64_S200x64))
        (broadcast S200x64 (Scalar.ofBits (F := Ideal) .f32 0x00000000#32)) (ix2 r q)
      = max ((∑ k : Fin 10000, a (ix2 r k) * s (ix2 k q)) + b (ix2 (0 : Fin 1) q)) 0 := by
  rw [dot_as]
  exact congrArg₂ max
    (congrArg₂ (· + ·) (Cert.PlainProduct.matmul_zero_apply none a s r q)
      ((broadcastTo_1b_ab_apply _ Facts₀.broadcasts_S1x64_S200x64 r q).trans
        (congrFun (shapeCast_self b Facts₀.shapeCasts_S1x64_S1x64) (ix2 (0 : Fin 1) q))))
    Ideal.ofBits_zero_f32

theorem pay2_apply (a : Vec Ideal S200x10000 .f32) (s : Vec Ideal S10000x64 .f32) (b : Vec Ideal S1x64 .f32) (r : Fin 200) (q : Fin 64) :
    k0_pay2 (F := Ideal) a s b (ix2 r q) = max ((∑ k : Fin 10000, a (ix2 r k) * s (ix2 k q)) + b (ix2 (0 : Fin 1) q)) 0 := by
  unfold k0_pay2
  exact half_apply a s b r q

theorem pay3_apply (a : Vec Ideal S200x10000 .f32) (s : Vec Ideal S10000x64 .f32) (b : Vec Ideal S1x64 .f32) (r : Fin 200) (q : Fin 64) :
    k0_pay3 (F := Ideal) a s b (ix2 r q) = max ((∑ k : Fin 10000, a (ix2 r k) * s (ix2 k q)) + b (ix2 (0 : Fin 1) q)) 0 := by
  unfold k0_pay3
  exact half_apply a s b r q

end Cert.KernelIdeal.Payload

end
-- ==== Proof.Spec.lean ====
/-
  One graph-convolution layer over the extended reals, entry by entry: with support = x·W (a [10000, 128] array
  by a [128, 64] array), the result at (i, q) is max (Σₖ adj (i, k) · support (k, q) + b q) 0, the sum over the
  10000 rows of the support.
-/
import Idealize.ShloMosaic.Lib.ValueIdx
import Idealize.ShloMosaic.PureOps.Ideal.Laws

noncomputable section

namespace Cert.Gcn

open Idealize.ShloMosaic Idealize.ShloMosaic.ValueIdx

/-- Entry (k, q) of the support x·W: the sum over the 128 features j of x (k, j) · W (j, q). -/
def support (x : FVec Ideal ⟨2, ![10000, 128]⟩ .f32) (W : FVec Ideal ⟨2, ![128, 64]⟩ .f32) (k : Fin 10000) (q : Fin 64) : EReal :=
  ∑ j : Fin 128, x (ix2 k j) * W (ix2 j q)

/-- The layer's value at row p and column q. -/
def layerAt (x : FVec Ideal ⟨2, ![10000, 128]⟩ .f32) (adj : FVec Ideal ⟨2, ![10000, 10000]⟩ .f32)
    (W : FVec Ideal ⟨2, ![128, 64]⟩ .f32) (b : FVec Ideal ⟨1, ![64]⟩ .f32) (p : Fin 10000) (q : Fin 64) : EReal :=
  max ((∑ k : Fin 10000, adj (ix2 p k) * support x W k q) + b (ix1 q)) 0

/-- The layer as one [10000, 64] array of the four argument arrays. -/
def layer (x : FVec Ideal ⟨2, ![10000, 128]⟩ .f32) (adj : FVec Ideal ⟨2, ![10000, 10000]⟩ .f32)
    (W : FVec Ideal ⟨2, ![128, 64]⟩ .f32) (b : FVec Ideal ⟨1, ![64]⟩ .f32) : FVec Ideal ⟨2, ![10000, 64]⟩ .f32 :=
  fun i => layerAt x adj W b (i 0) (i 1)

theorem layer_apply (x : FVec Ideal ⟨2, ![10000, 128]⟩ .f32) (adj : FVec Ideal ⟨2, ![10000, 10000]⟩ .f32)
    (W : FVec Ideal ⟨2, ![128, 64]⟩ .f32) (b : FVec Ideal ⟨1, ![64]⟩ .f32) (p : Fin 10000) (q : Fin 64) :
    layer x adj W b (ix2 p q) = layerAt x adj W b p q := rfl

end Cert.Gcn

end
-- ==== Proof.KernelIdealFinal.lean ====
/-
  From the blocks to the array. Grid point t writes back a [400, 64] block, rows 400t … 400t + 399 of the
  [10000, 64] result; its upper 200 rows are max (a·s + b, 0) for the adjacency rows 400t + r, its lower 200 rows
  the same for the adjacency rows 400t + 200 + r, with s = x·W the support the first point left in the scratch
  buffer. So every entry of a written block is the graph-convolution layer at the entry's own row and column,
  the 25 blocks tile the 10000 rows, and the result array ends holding the layer of the four argument arrays.
-/
import proofs.«108894_g71442486001720_cont_9to1_m_357_7_alg».proof.Proof.KernelIdealData
import proofs.«108894_g71442486001720_cont_9to1_m_357_7_alg».proof.Proof.KernelIdealPieces
import proofs.«108894_g71442486001720_cont_9to1_m_357_7_alg».proof.Proof.KernelIdealBlocks
import proofs.«108894_g71442486001720_cont_9to1_m_357_7_alg».proof.Proof.KernelIdealPayload
import proofs.«108894_g71442486001720_cont_9to1_m_357_7_alg».proof.Proof.Spec
import proofs.«108894_g71442486001720_cont_9to1_m_357_7_alg».proof.Proof.Gen.KernelIdeal.Points
import proofs.«108894_g71442486001720_cont_9to1_m_357_7_alg».proof.Proof.Gen.KernelIdeal.Launch
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-! ## The result -/

/-- The layer of the four argument arrays as the program found them. -/
abbrev result (c : Dev nD) : Buf (Elt Ideal) ((c : Thread nD τ).loc main_v0) :=
  Cert.Gcn.layer (m ((c : Thread nD τ).loc main_arg0)) (m ((c : Thread nD τ).loc main_arg1))
    (m ((c : Thread nD τ).loc main_arg2)) (m ((c : Thread nD τ).loc main_arg3))

/-! ## The output window's index map -/

/-- Point t's block is block (t, 0) of the result: decided once over the 25 points. -/
theorem idx5 : ∀ t : Fin cfg0.N, win0_5.index t (0 : Fin 2) = t.val ∧ win0_5.index t (1 : Fin 2) = 0 :=
  (by decide +kernel : ∀ t : Fin grid0.N, _)

/-- The grid's points are below 25. -/
theorem t_lt (t : Fin cfg0.N) : t.val < 25 := Nat.lt_of_lt_of_eq t.isLt N_0

/-- Rows r and 200 + r of a block, r below 200, are rows of the 400-row block … -/
theorem upper_lt (r : Fin 200) : r.val < 400 := by have := r.isLt; omega
theorem lower_lt (r : Fin 200) : 200 + r.val < 400 := by have := r.isLt; omega
/-- … and rows 400t + r and 400t + 200 + r are rows of the result. -/
theorem upper_row_lt (t : Fin cfg0.N) (r : Fin 200) : 400 * t.val + r.val < 10000 := by
  have := t_lt t; have := r.isLt; omega
theorem lower_row_lt (t : Fin cfg0.N) (r : Fin 200) : 400 * t.val + 200 + r.val < 10000 := by
  have := t_lt t; have := r.isLt; omega

/-! ## One entry of a written block -/

/-- The scratch's entry (k, q) is the support x·W at (k, q). -/
theorem scr_apply (c : Dev nD) (k : Fin 10000) (q : Fin 64) :
    scr m c (ix2 k q)
      = Cert.Gcn.support (m ((c : Thread nD τ).loc main_arg0)) (m ((c : Thread nD τ).loc main_arg2)) k q := by
  refine (congrFun (scr_eq m c) (ix2 k q)).trans ?_
  refine (Cert.KernelIdeal.Payload.pay1_apply _ _ k q).trans ?_
  unfold Cert.Gcn.support
  exact Finset.sum_congr rfl fun j _ => congrArg₂ (· * ·) (blk_x m c k j) (blk_w m c j q)

/-- An entry of the upper half of point t's block: block row r' = r below 200, at the result's row p = 400t + r. -/
theorem outAt_upper (c : Dev nD) (t : Fin cfg0.N) (r : Fin 200) (q : Fin 64) (r' : Fin 400) (hr' : r'.val = r.val)
    (p : Fin 10000) (hp : p.val = 400 * t.val + r.val) :
    outAt m c t (ix2 r' q)
      = Cert.Gcn.layerAt (m ((c : Thread nD τ).loc main_arg0)) (m ((c : Thread nD τ).loc main_arg1))
          (m ((c : Thread nD τ).loc main_arg2)) (m ((c : Thread nD τ).loc main_arg3)) p q := by
  have h : 400 * t.val + r.val < 10000 := upper_row_lt t r
  obtain rfl : r' = ⟨r.val, upper_lt r⟩ := Fin.ext hr'
  obtain rfl : p = ⟨400 * t.val + r.val, h⟩ := Fin.ext hp
  refine (outAt_top m c t r q).trans ?_
  refine (Cert.KernelIdeal.Payload.pay2_apply _ _ _ r q).trans ?_
  unfold Cert.Gcn.layerAt
  exact congrArg₂ max
    (congrArg₂ (· + ·)
      (Finset.sum_congr rfl fun k _ => congrArg₂ (· * ·) (blk_a1 m c t r k h) (scr_apply m c k q))
      (blk_b m c t q))
    rfl

/-- An entry of the lower half: block row r' = 200 + r, at the result's row p = 400t + 200 + r. -/
theorem outAt_lower (c : Dev nD) (t : Fin cfg0.N) (r : Fin 200) (q : Fin 64) (r' : Fin 400) (hr' : r'.val = 200 + r.val)
    (p : Fin 10000) (hp : p.val = 400 * t.val + 200 + r.val) :
    outAt m c t (ix2 r' q)
      = Cert.Gcn.layerAt (m ((c : Thread nD τ).loc main_arg0)) (m ((c : Thread nD τ).loc main_arg1))
          (m ((c : Thread nD τ).loc main_arg2)) (m ((c : Thread nD τ).loc main_arg3)) p q := by
  have h : 400 * t.val + 200 + r.val < 10000 := lower_row_lt t r
  obtain rfl : r' = ⟨200 + r.val, lower_lt r⟩ := Fin.ext hr'
  obtain rfl : p = ⟨400 * t.val + 200 + r.val, h⟩ := Fin.ext hp
  refine (outAt_bot m c t r q).trans ?_
  refine (Cert.KernelIdeal.Payload.pay3_apply _ _ _ r q).trans ?_
  unfold Cert.Gcn.layerAt
  exact congrArg₂ max
    (congrArg₂ (· + ·)
      (Finset.sum_congr rfl fun k _ => congrArg₂ (· * ·) (blk_a2 m c t r k h) (scr_apply m c k q))
      (blk_b m c t q))
    rfl

/-- Entry (r', q) of point t's block is the layer at row 400t + r' and column q. -/
theorem outAt_apply (c : Dev nD) (t : Fin cfg0.N) (r' : Fin 400) (q : Fin 64) (p : Fin 10000)
    (hp : p.val = 400 * t.val + r'.val) :
    outAt m c t (ix2 r' q)
      = Cert.Gcn.layerAt (m ((c : Thread nD τ).loc main_arg0)) (m ((c : Thread nD τ).loc main_arg1))
          (m ((c : Thread nD τ).loc main_arg2)) (m ((c : Thread nD τ).loc main_arg3)) p q := by
  have hr := r'.isLt
  by_cases hlt : r'.val < 200
  · exact outAt_upper m c t ⟨r'.val, hlt⟩ q r' rfl p hp
  · exact outAt_lower m c t ⟨r'.val - 200, by omega⟩ q r' (by show r'.val = 200 + (r'.val - 200); omega) p
      (by show p.val = 400 * t.val + 200 + (r'.val - 200); omega)

/-! ## What a point writes back -/

/-- Where entry (r', q) of point t's block sits in the result: row 400t + r', column q. -/
theorem blk5_emb (t : Fin cfg0.N) (r' : Fin 400) (q : Fin 64) :
    ((cfg0.win 5).blk t).view.emb (ix2 r' q)
      = ix2 (⟨400 * t.val + r'.val, by have := t_lt t; have := r'.isLt; omega⟩ : Fin 10000) q := by
  obtain ⟨e0, e1⟩ := idx5 t
  funext a
  apply Fin.ext
  match a with
  | ⟨0, _⟩ => show win0_5.index t (0 : Fin 2) * 400 + 1 * r'.val = 400 * t.val + r'.val; rw [e0]; omega
  | ⟨1, _⟩ => show win0_5.index t (1 : Fin 2) * 64 + 1 * q.val = q.val; rw [e1]; omega

/-- What point t writes back is block t of the result. -/
theorem flushed_eq (c : Dev nD) (t : Fin cfg0.N) (hf : (cfg0.win 5).flush t = true) :
    (dats m 0 c).flushed 5 t = ((cfg0.win 5).blk t).view.read (Elt Ideal) (result m c) := by
  show (cfg0.win 5).cut (grid0.coords t) ((dats m 0 c).after 5 t) = _
  rw [after5]
  funext j
  obtain ⟨r', q, rfl⟩ : ∃ (r' : Fin 400) (q : Fin 64), j = ix2 r' q := ⟨j 0, j 1, eq_ix2 j⟩
  rw [View.read_apply, blk5_emb t r' q]
  exact outAt_apply m c t r' q _ rfl

/-! ## The 25 blocks tile the result -/

/-- Row i of the result is in the block of point i / 400. -/
theorem cover (c : Dev nD) (i : ((cfg0.win 5).arr.view.loc ((c : Dev nD).tc : Thread nD τ)).2.ty.Idx) :
    ∃ t : Fin cfg0.N, (cfg0.win 5).flush t = true ∧ i ∈ ((cfg0.win 5).blk t).view.set := by
  have h0 : (i 0 : Nat) < 10000 := (i 0).isLt
  have h1 : (i 1 : Nat) < 64 := (i 1).isLt
  have hN : cfg0.N = 25 := N_0
  let t : Fin cfg0.N := ⟨(i 0 : Nat) / 400, by rw [hN]; omega⟩
  have ht : t.val = (i 0 : Nat) / 400 := rfl
  obtain ⟨e0, e1⟩ := idx5 t
  refine ⟨t, flush0_5 t, ?_⟩
  show i ∈ ((View.whole main_v0).slice (win0_5.rect t)).set
  rw [View.set_slice_whole, Rect.mem_set_unit]
  intro a
  match a with
  | ⟨0, _⟩ =>
    show win0_5.index t (0 : Fin 2) * 400 ≤ (i 0 : Nat) ∧ (i 0 : Nat) < win0_5.index t (0 : Fin 2) * 400 + 400
    rw [e0, ht]; omega
  | ⟨1, _⟩ =>
    show win0_5.index t (1 : Fin 2) * 64 ≤ (i 1 : Nat) ∧ (i 1 : Nat) < win0_5.index t (1 : Fin 2) * 64 + 64
    rw [e1]; omega

/-! ## The array after the run -/

/-- After the 25 write-backs the result array holds the layer of the four argument arrays. -/
theorem final (c : Dev nD) : (dats m 0 c).arrAt 5 cfg0.N = result m c :=
  (dats m 0 c).arrAt_eq_of_cover 5 (result m c) (flushed_eq m c) (cover c)

end Cert.KernelIdeal.Body

end
-- ==== Proof.RefValue.lean ====
/-
  The reference program is one graph-convolution layer. Its eight host operations are two matrix products
  (support = x·W, then adj·support), the bias [64] carried to [1, 64] and then to [10000, 64], a sum, and a maximum
  against the zero array. Read at the index (p, q) over the extended reals this is
  max (Σₖ adj (p, k) · support (k, q) + b q) 0, the specification's entry.
-/
import proofs.«108894_g71442486001720_cont_9to1_m_357_7_alg».proof.Proof.Gen.ReferenceIdeal.Run
import proofs.«108894_g71442486001720_cont_9to1_m_357_7_alg».proof.Proof.Gen.ReferenceIdeal.Read
import proofs.«108894_g71442486001720_cont_9to1_m_357_7_alg».proof.Proof.Spec

noncomputable section

namespace Cert.ReferenceIdeal.RefValue

open Cert.ReferenceIdeal Cert.ReferenceIdeal.Read Idealize.ShloMosaic Idealize.ShloMosaic.ValueIdx

/-! ## Where each operation reads its operands, at the index (p, q) -/

/-- The first product at (k, q) reads x at (k, j). -/
theorem lidx_v0_ix2 (k : Fin 10000) (q : Fin 64) (j : Fin 128) : lidx_main_v0 (ix2 k q) j = ix2 k j :=
  funext fun a => Fin.ext (by match a with | ⟨0, _⟩ => rfl | ⟨1, _⟩ => rfl)

/-- The first product at (k, q) reads W at (j, q). -/
theorem ridx_v0_ix2 (k : Fin 10000) (q : Fin 64) (j : Fin 128) : ridx_main_v0 (ix2 k q) j = ix2 j q :=
  funext fun a => Fin.ext (by match a with | ⟨0, _⟩ => rfl | ⟨1, _⟩ => rfl)

/-- The second product at (p, q) reads adj at (p, k). -/
theorem lidx_v1_ix2 (p : Fin 10000) (q : Fin 64) (k : Fin 10000) : lidx_main_v1 (ix2 p q) k = ix2 p k :=
  funext fun a => Fin.ext (by match a with | ⟨0, _⟩ => rfl | ⟨1, _⟩ => rfl)

/-- The second product at (p, q) reads the support at (k, q). -/
theorem ridx_v1_ix2 (p : Fin 10000) (q : Fin 64) (k : Fin 10000) : ridx_main_v1 (ix2 p q) k = ix2 k q :=
  funext fun a => Fin.ext (by match a with | ⟨0, _⟩ => rfl | ⟨1, _⟩ => rfl)

/-- The two broadcasts of the bias, composed: the entry (p, q) of the [10000, 64] array is the bias at q. -/
theorem idx_bias_ix2 (p : Fin 10000) (q : Fin 64) : idx_main_v2 (idx_main_v3 (ix2 p q)) = ix1 q :=
  funext fun a => Fin.ext (by match a with | ⟨0, _⟩ => rfl)

/-! ## The operations' values at (p, q) -/

/-- The first product is the support: at (k, q), the sum over the 128 features j of x (k, j) · W (j, q). -/
theorem v0_support (x0 : (⟨S10000x128, .f32⟩ : BufTy).Contents (Elt Ideal)) (x2 : (⟨S128x64, .f32⟩ : BufTy).Contents (Elt Ideal))
    (k : Fin 10000) (q : Fin 64) : val_main_v0 (F := Ideal) x0 x2 (ix2 k q) = Cert.Gcn.support x0 x2 k q := by
  rw [val_main_v0_apply]
  unfold Cert.Gcn.support
  refine Finset.sum_congr rfl fun j _ => ?_
  rw [lidx_v0_ix2, ridx_v0_ix2]

/-- The second product at (p, q): the sum over the 10000 rows k of adj (p, k) · support (k, q). -/
theorem v1_sum (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (p : Fin 10000) (q : Fin 64) :
    val_main_v1 (F := Ideal) x0 x1 x2 (ix2 p q) = ∑ k : Fin 10000, x1 (ix2 p k) * Cert.Gcn.support x0 x2 k q := by
  rw [val_main_v1_apply]
  refine Finset.sum_congr rfl fun k _ => ?_
  rw [lidx_v1_ix2, ridx_v1_ix2, v0_support]

/-- The broadcast bias at (p, q) is b q. -/
theorem v3_bias (x3 : (⟨S64, .f32⟩ : BufTy).Contents (Elt Ideal)) (p : Fin 10000) (q : Fin 64) :
    val_main_v3 (F := Ideal) x3 (ix2 p q) = x3 (ix1 q) := by
  rw [val_main_v3_apply, val_main_v2_apply, idx_bias_ix2]

/-- The broadcast zero constant at any index is the extended real 0. -/
theorem zero_at (i : S10000x64.Idx) : val_main_call0_v0 (F := Ideal) i = (0 : EReal) := by
  rw [val_main_call0_v0_apply, val_main_call0_cst_apply, Ideal.ofBits_def, Ideal.ofBits_zero_f32]

/-! ## The reference's result is the layer -/

theorem ref_is_layer (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal)) :
    Cert.ReferenceIdeal.Read.val_main_v5 (F := Ideal) x0 x1 x2 x3 = Cert.Gcn.layer x0 x1 x2 x3 := by
  funext i
  obtain ⟨p, q, rfl⟩ : ∃ (p : Fin 10000) (q : Fin 64), i = ix2 p q := ⟨i 0, i 1, eq_ix2 i⟩
  rw [Cert.Gcn.layer_apply, val_main_v5_apply, val_main_v4_apply, v1_sum, v3_bias, zero_at,
    Ideal.maximumf_def, Ideal.addf_def]
  rfl

end Cert.ReferenceIdeal.RefValue

end
-- ==== Proof.lean ====
/-
  One graph-convolution layer, out = max (adj · (x · W) + b, 0), as a pipelined kernel against its array reference:
  the kernel's program, its reading over the extended reals and the reference all run to their ends with their
  arguments unchanged, and over the extended reals kernel and reference end with equal results.

  The kernel's region walks 25 grid points. The first fills a scratch buffer with the support x · W; every point
  then reads two adjacent 200-row blocks of the adjacency matrix — two windows on ONE array, held at the two halves
  of its full share — and writes back a 400-row block of the result, each half max (a · support + b, 0). So row
  400t + r of the result is max (Σₖ adj (400t + r, k) · Σⱼ x (k, j) · W (j, q) + b q, 0), which is entry by entry
  what the reference's two products, its sum with the spread bias and its maximum with zero compute: both sides
  are the one function `Cert.Gcn.layer` of the argument arrays, with no law beyond the reading of a product as a
  sum, so finiteness of the inputs is never used.
-/
import proofs.«108894_g71442486001720_cont_9to1_m_357_7_alg».proof.Defs
import proofs.«108894_g71442486001720_cont_9to1_m_357_7_alg».proof.Proof.Gen.Kernel
import proofs.«108894_g71442486001720_cont_9to1_m_357_7_alg».proof.Proof.Gen.KernelIdeal
import proofs.«108894_g71442486001720_cont_9to1_m_357_7_alg».proof.Proof.Gen.ReferenceIdeal
import proofs.«108894_g71442486001720_cont_9to1_m_357_7_alg».proof.Proof.Gen.Pre_finite_inputs
import proofs.«108894_g71442486001720_cont_9to1_m_357_7_alg».proof.Proof.KernelFrame
import proofs.«108894_g71442486001720_cont_9to1_m_357_7_alg».proof.Proof.KernelIdealFrame
import proofs.«108894_g71442486001720_cont_9to1_m_357_7_alg».proof.Proof.KernelIdealFinal
import proofs.«108894_g71442486001720_cont_9to1_m_357_7_alg».proof.Proof.RefValue

noncomputable section

namespace Cert.Proof

open Idealize.ShloMosaic Idealize.ShloMosaic.TcCoe Idealize.SL.Sem

/-- The word-level program runs to its end and keeps its arguments. -/
theorem frame_k : Cert.frame_Kernel := fun m ρ _ => Cert.Kernel.Body.frame m ρ

/-- So does its reading over the extended reals. -/
theorem frame_ki : Cert.frame_KernelIdeal := fun m ρ _ => Cert.KernelIdeal.Body.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result array ends at the layer of its arguments (the 25 written-back
    blocks cover it) and the reference's result is the same layer of arguments that agree. -/
theorem algebraic : Cert.algebraic_KernelIdeal_ReferenceIdeal := by
  intro m ρ m' ρ' _ hagree
  refine ⟨fun c => Cert.KernelIdeal.Body.result m c, ?_, ?_⟩
  · exact (θ_run Cert.KernelIdeal.defs _ _).mono
      (fun r h c => ⟨(h c).1.trans (Cert.KernelIdeal.Body.final m c), (h c).2⟩)
      (Cert.KernelIdeal.Body.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.ref_is_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
